-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x6144 : Shape := ⟨2, ![16384, 6144]⟩
abbrev S768x6144 : Shape := ⟨2, ![768, 6144]⟩
abbrev S_ : Shape := ⟨0, ![]⟩

class Facts : Prop where
  bitsLt_bf16_f32 : FTy.bits .bf16 < FTy.bits .f32
  bcast_S_S16384x6144 : S_.BroadcastsInDim S16384x6144 (![] : Fin 0 → Fin S16384x6144.rank)
  reducesTo_S16384x6144_S_d0_1 : S16384x6144.ReducesTo [0, 1] S_
  h_S_ : 0 < S_.numel
  bcast_S_S768x6144 : S_.BroadcastsInDim S768x6144 (![] : Fin 0 → Fin S768x6144.rank)
  reducesTo_S768x6144_S_d0_1 : S768x6144.ReducesTo [0, 1] S_

variable [Facts]

def fn {F : FTy → Type} [FloatOps F] (main_arg0 : FVec F S16384x6144 .bf16) (main_arg1 : FVec F S768x6144 .bf16) : IVec S_ 1 :=
  let main_v0 : FVec F S16384x6144 .f32 := (extf .f32 · bitsLt_bf16_f32) main_arg0
  let main_v1 : FVec F S16384x6144 .f32 := Host.absf main_v0
  let main_cst : FVec F S_ .f32 := constant S_ .f32 0x7F800000#32
  let main_v2 : FVec F S16384x6144 .f32 := broadcastInDim S16384x6144 ![] bcast_S_S16384x6144 main_cst
  let main_v3 : IVec S16384x6144 1 := cmpf .olt main_v1 main_v2
  let main_c : IVec S_ 1 := constantI S_ 1 1#1
  let main_v4 : IVec S_ 1 := (fun x v => Host.reduce IntOp.andi x v reducesTo_S16384x6144_S_d0_1 h_S_) main_v3 main_c
  let main_v5 : FVec F S768x6144 .f32 := (extf .f32 · bitsLt_bf16_f32) main_arg1
  let main_v6 : FVec F S768x6144 .f32 := Host.absf main_v5
  let main_cst_0 : FVec F S_ .f32 := constant S_ .f32 0x7F800000#32
  let main_v7 : FVec F S768x6144 .f32 := broadcastInDim S768x6144 ![] bcast_S_S768x6144 main_cst_0
  let main_v8 : IVec S768x6144 1 := cmpf .olt main_v6 main_v7
  let main_c_1 : IVec S_ 1 := constantI S_ 1 1#1
  let main_v9 : IVec S_ 1 := (fun x v => Host.reduce IntOp.andi x v reducesTo_S768x6144_S_d0_1 h_S_) main_v8 main_c_1
  let main_v10 : IVec S_ 1 := andi main_v4 main_v9
  main_v10
-- ==== Kernel.lean ====
abbrev S16384x6144 : Shape := ⟨2, ![16384, 6144]⟩
abbrev S768x6144 : Shape := ⟨2, ![768, 6144]⟩
abbrev S16384x768 : Shape := ⟨2, ![16384, 768]⟩
abbrev S1024x6144 : Shape := ⟨2, ![1024, 6144]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S16384x6144, .bf16⟩
  | .hbm, ⟨1, _⟩ => ⟨S768x6144, .bf16⟩
  | .hbm, ⟨2, _⟩ => ⟨S16384x768, .f32⟩
  | .local _ .vmem, ⟨0, _⟩ => ⟨S1024x6144, .bf16⟩
  | .local _ .vmem, ⟨1, _⟩ => ⟨S1024x6144, .bf16⟩
  | .local _ .vmem, ⟨2, _⟩ => ⟨S768x6144, .bf16⟩
  | .local _ .vmem, ⟨3, _⟩ => ⟨S1024x768, .f32⟩
  | .local _ .vmem, ⟨4, _⟩ => ⟨S1024x768, .f32⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x6144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1024x6144_S1024x6144_0_0 : ∀ a, (![0, 0] : Fin 2 → Nat) a + S1024x6144.size a ≤ S1024x6144.size a
  h_S1024x6144 : 0 < S1024x6144.numel
  inb_S768x6144_S768x6144_0_0 : ∀ a, (![0, 0] : Fin 2 → Nat) a + S768x6144.size a ≤ S768x6144.size a
  h_S768x6144 : 0 < S768x6144.numel
  inb_S1024x768_S1024x768_0_0 : ∀ a, (![0, 0] : Fin 2 → Nat) a + S1024x768.size a ≤ S1024x768.size a
  h_S1024x768 : 0 < S1024x768.numel
  dot_S1024x6144_S768x6144_S1024x768_1_1_0_0_n_n_wf : DotDims.WF S1024x6144 S768x6144 S1024x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x6144.size a ≤ S16384x6144.size a
  hwx0_0 : ∀ i : grid0.Coords, EltTy.bits .bf16 = 32 ∨ (Rect.block (s := S16384x6144) S1024x6144.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x6144.size a ≤ S768x6144.size a
  hwx0_1 : ∀ i : grid0.Coords, EltTy.bits .bf16 = 32 ∨ (Rect.block (s := S768x6144) S768x6144.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x768.size a ≤ S16384x768.size a
  hwx0_2 : ∀ i : grid0.Coords, EltTy.bits .f32 = 32 ∨ (Rect.block (s := S16384x768) S1024x768.size (cc0_transform_2 i) (hinb0_2 i)).WholeWords (EltTy.packing .f32)

variable [Facts₀]

def dot_S1024x6144_S768x6144_S1024x768_1_1_0_0_n_n : DotDims S1024x6144 S768x6144 S1024x768 where
  lhsContracting := [1]
  rhsContracting := [1]
  lhsNonContracting := [0]
  rhsNonContracting := [0]
  lhsBatch := []
  rhsBatch := []
  wf := dot_S1024x6144_S768x6144_S1024x768_1_1_0_0_n_n_wf

abbrev win0_0 : Pipeline.Window sig grid0 :=
  Pipeline.Window.ofSpec (Memref.whole main_arg0) S1024x6144.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x6144.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x6144 : Shape := ⟨2, ![16384, 6144]⟩
abbrev S768x6144 : Shape := ⟨2, ![768, 6144]⟩
abbrev S16384x768 : Shape := ⟨2, ![16384, 768]⟩

abbrev nBuf : Space → Nat
  | .hbm => 5
  | .vmem => 0
  | .smem => 0
  | _ => 0

abbrev bufTy : (tb : Table) → Fin (tcTables nBuf tb) → BufTy
  | .hbm, ⟨0, _⟩ => ⟨S16384x6144, .bf16⟩
  | .hbm, ⟨1, _⟩ => ⟨S768x6144, .bf16⟩
  | .hbm, ⟨2, _⟩ => ⟨S16384x6144, .f32⟩
  | .hbm, ⟨3, _⟩ => ⟨S768x6144, .f32⟩
  | .hbm, ⟨4, _⟩ => ⟨S16384x768, .f32⟩
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  bitsLt_bf16_f32 : FTy.bits .bf16 < FTy.bits .f32
  dot_S16384x6144_S768x6144_S16384x768_1_1_0_0_n_n_wf : DotDims.WF S16384x6144 S768x6144 S16384x768 [1] [1] [0] [0] [] []

variable [Facts₀]

def dot_S16384x6144_S768x6144_S16384x768_1_1_0_0_n_n : DotDims S16384x6144 S768x6144 S16384x768 where
  lhsContracting := [1]
  rhsContracting := [1]
  lhsNonContracting := [0]
  rhsNonContracting := [0]
  lhsBatch := []
  rhsBatch := []
  wf := dot_S16384x6144_S768x6144_S16384x768_1_1_0_0_n_n_wf

class Facts : Prop extends Facts₀ where

variable [Facts]
-- ==== Proof.RouterLogits.lean ====
/-
  The router's logits as ONE function of the two argument arrays. Entry (r, e) of the result is the inner product
  of token r's row of the hidden states with expert e's row of the weights,

      logits[r, e] = ∑ d < 6144, h[r, d] · w[e, d],

  a finite sum of products on the extended reals. Both operands are contracted along their LAST axis, so the
  weight matrix is never transposed. Nothing about a program is used here: only the shapes.
-/
import Idealize.ShloMosaic.Lib.ValueIdx

noncomputable section

open scoped BigOperators

namespace Cert.RouterLogits

open Idealize.ShloMosaic Idealize.ShloMosaic.ValueIdx

/-- Entry (r, e): the inner product, over the 6144 hidden coordinates, of row r of `h` and row e of `w`. -/
def logits (h : (⟨2, ![16384, 6144]⟩ : Shape).Idx → EReal) (w : (⟨2, ![768, 6144]⟩ : Shape).Idx → EReal) :
    (⟨2, ![16384, 768]⟩ : Shape).Idx → EReal :=
  fun i => ∑ k : Fin 6144, h (ix2 (i 0) k) * w (ix2 (i 1) k)

/-- The same inner product for ONE block of 1024 consecutive token rows against the whole weight matrix: what a
    single grid point computes from the block of hidden states it holds. -/
def blockLogits (x : (⟨2, ![1024, 6144]⟩ : Shape).Idx → EReal) (w : (⟨2, ![768, 6144]⟩ : Shape).Idx → EReal) :
    (⟨2, ![1024, 768]⟩ : Shape).Idx → EReal :=
  fun j => ∑ k : Fin 6144, x (ix2 (j 0) k) * w (ix2 (j 1) k)

end Cert.RouterLogits

end
-- ==== Proof.BlockProduct.lean ====
/-
  What one grid point computes. The body loads the point's block of 1024 token rows and the whole weight matrix
  and multiplies them on the matrix unit into a zero accumulator, contracting the last axis of BOTH operands. On the
  extended reals that product, read at an entry (p, e) of the block, is the zero accumulator plus the sum over the
  hidden coordinate d of x[p, d] · w[e, d]: the block's inner products, `blockLogits`.
-/
import proofs.«400669_j49065706390112_3_alg».proof.Proof.Gen.KernelIdeal.Skeleton
import proofs.«400669_j49065706390112_3_alg».proof.Proof.RouterLogits
import Idealize.ShloMosaic.Lib.ValueIdx
import Idealize.ShloMosaic.PureOps.Ideal.Laws

noncomputable section

open scoped BigOperators

namespace Cert.KernelIdeal.BlockProduct

open Cert.KernelIdeal Cert.KernelIdeal.Gen Cert.RouterLogits
open Idealize.ShloMosaic Idealize.ShloMosaic.ValueIdx

/-- The left operand's row at output entry (p, e) is p: axis 0 of the block is kept, not contracted. -/
theorem lhs_row (j : S1024x768.Idx) (q : dot_S1024x6144_S768x6144_S1024x768_1_1_0_0_n_n.contr.Idx) :
    (dot_S1024x6144_S768x6144_S1024x768_1_1_0_0_n_n.lhsIdx j q 0).val = (j 0).val := by
  unfold DotDims.lhsIdx
  rw [dif_neg (show ¬(0 : Fin S1024x6144.rank) ∈ dot_S1024x6144_S768x6144_S1024x768_1_1_0_0_n_n.lhsBatch by decide), dif_pos (show (0 : Fin S1024x6144.rank) ∈ dot_S1024x6144_S768x6144_S1024x768_1_1_0_0_n_n.lhsNonContracting by decide)]
  rfl

/-- The left operand's column is the contraction coordinate: axis 1 of the block is the one contracted. -/
theorem lhs_col (j : S1024x768.Idx) (q : dot_S1024x6144_S768x6144_S1024x768_1_1_0_0_n_n.contr.Idx) :
    (dot_S1024x6144_S768x6144_S1024x768_1_1_0_0_n_n.lhsIdx j q 1).val = (q ⟨0, by decide⟩).val :=
  dot_S1024x6144_S768x6144_S1024x768_1_1_0_0_n_n.lhsIdx_val_of_single rfl j q

/-- The right operand's row at output entry (p, e) is e: the expert's row of the weights, kept. -/
theorem rhs_row (j : S1024x768.Idx) (q : dot_S1024x6144_S768x6144_S1024x768_1_1_0_0_n_n.contr.Idx) :
    (dot_S1024x6144_S768x6144_S1024x768_1_1_0_0_n_n.rhsIdx j q 0).val = (j 1).val := by
  unfold DotDims.rhsIdx
  rw [dif_neg (show ¬(0 : Fin S768x6144.rank) ∈ dot_S1024x6144_S768x6144_S1024x768_1_1_0_0_n_n.rhsBatch by decide), dif_pos (show (0 : Fin S768x6144.rank) ∈ dot_S1024x6144_S768x6144_S1024x768_1_1_0_0_n_n.rhsNonContracting by decide)]
  rfl

/-- The right operand's column is the contraction coordinate too: the weights are contracted along their last
    axis, as stored. -/
theorem rhs_col (j : S1024x768.Idx) (q : dot_S1024x6144_S768x6144_S1024x768_1_1_0_0_n_n.contr.Idx) :
    (dot_S1024x6144_S768x6144_S1024x768_1_1_0_0_n_n.rhsIdx j q 1).val = (q ⟨0, by decide⟩).val :=
  dot_S1024x6144_S768x6144_S1024x768_1_1_0_0_n_n.rhsIdx_val_of_single rfl j q

/-- The body's one payload — the matrix product of the loaded block and the loaded weights into the zero
    accumulator — is the block's inner products: the contraction's sum re-indexed by its one coordinate d < 6144. -/
theorem pay_eq (x : Vec Ideal S1024x6144 .bf16) (w : Vec Ideal S768x6144 .bf16) :
    k0_pay1 (F := Ideal) x w = blockLogits x w := by
  funext j
  show matmul (F := Ideal) dot_S1024x6144_S768x6144_S1024x768_1_1_0_0_n_n none x w (constant S1024x768 .f32 0x00000000#32) j = _
  simp only [matmul]
  rw [Ideal.matmul_constant_zero_apply, ← Equiv.sum_comp (contrEquiv1 dot_S1024x6144_S768x6144_S1024x768_1_1_0_0_n_n 6144 rfl rfl).symm]
  unfold blockLogits
  refine Finset.sum_congr rfl fun k _ => ?_
  have hk := contrEquiv1_symm_val dot_S1024x6144_S768x6144_S1024x768_1_1_0_0_n_n 6144 rfl rfl k
  have el : dot_S1024x6144_S768x6144_S1024x768_1_1_0_0_n_n.lhsIdx j ((contrEquiv1 dot_S1024x6144_S768x6144_S1024x768_1_1_0_0_n_n 6144 rfl rfl).symm k) = ix2 (j 0) k := funext fun a => Fin.ext (by
    match a with
    | ⟨0, _⟩ => exact lhs_row _ _
    | ⟨1, _⟩ => exact (lhs_col _ _).trans hk)
  have er : dot_S1024x6144_S768x6144_S1024x768_1_1_0_0_n_n.rhsIdx j ((contrEquiv1 dot_S1024x6144_S768x6144_S1024x768_1_1_0_0_n_n 6144 rfl rfl).symm k) = ix2 (j 1) k := funext fun a => Fin.ext (by
    match a with
    | ⟨0, _⟩ => exact rhs_row _ _
    | ⟨1, _⟩ => exact (rhs_col _ _).trans hk)
  rw [el, er]
  rfl

end Cert.KernelIdeal.BlockProduct

end
-- ==== Proof.KernelLogits.lean ====
/-
  From the sixteen blocks to the whole array. The grid has sixteen points; point t holds rows 1024·t … 1024·t + 1023
  of the hidden states, the whole weight matrix at every point, and writes rows 1024·t … 1024·t + 1023 of the
  result. What a point writes is its block's inner products (`blockLogits`), and an entry (p, e) of that block is
  entry (1024·t + p, e) of `logits` of the whole arrays, because the block's row p IS row 1024·t + p of the hidden
  states and the weights are read whole. The sixteen row blocks tile the 16384 rows, so after the run the result
  array is `logits` of the two argument arrays.
-/
import proofs.«400669_j49065706390112_3_alg».proof.Proof.Gen.KernelIdeal.Value
import proofs.«400669_j49065706390112_3_alg».proof.Proof.BlockProduct

noncomputable section

open scoped BigOperators

namespace Cert.KernelIdeal.KernelLogits

open Cert.KernelIdeal Cert.KernelIdeal.Gen Cert.RouterLogits
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The body's accesses all start at the block's origin. -/
theorem origin : (![0, 0] : Fin 2 → Nat) = fun _ => 0 := funext fun a => by fin_cases a <;> rfl

/-- How the three windows move over the grid, decided point by point: the hidden states' block and the result's
    block sit at the same row-block index and at column block 0; the weights' block never moves. -/
theorem window_moves : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every one of the sixteen row blocks of the result is some point's. -/
theorem every_row_block : ∀ q : Fin 16, ∃ t : Fin cfg0.N, win0_2.index t = ![q.val, 0] :=
  (by decide +kernel : ∀ q : Fin 16, ∃ t : Fin grid0.N, win0_2.index t = ![q.val, 0])

/-- Row p, column d of the point's block of hidden states is the array's entry in the row where the point's result
    block has its row p, column d. -/
theorem hidden_block_read (c : Dev nD) (t : Fin cfg0.N) (y : S1024x768.Idx) (k : Fin 6144) :
    iblk m c 0 t (ix2 (y 0) k) = V m c main_arg0 (ix2 ((((cfg0.win 2).blk t).view.emb y) 0) k) := by
  obtain ⟨e0, e1, -, -, -⟩ := window_moves t
  show V m c main_arg0 (((cfg0.win 0).blk t).view.emb (ix2 (y 0) k)) = _
  refine congrArg (V m c main_arg0) ?_
  funext a; apply Fin.ext
  match a with
  | ⟨0, _⟩ => show win0_0.index t (0 : Fin 2) * 1024 + 1 * (y 0).val = win0_2.index t (0 : Fin 2) * 1024 + 1 * (y 0).val; omega
  | ⟨1, _⟩ => show win0_0.index t (1 : Fin 2) * 6144 + 1 * k.val = k.val; omega

/-- Row e, column d of the point's block of weights is the array's entry (e, d), where e is also the column of the
    point's result block in the result array: the weights' block is the whole matrix and the result's blocks span
    all 768 columns. -/
theorem weight_block_read (c : Dev nD) (t : Fin cfg0.N) (y : S1024x768.Idx) (k : Fin 6144) :
    iblk m c 1 t (ix2 (y 1) k) = V m c main_arg1 (ix2 ((((cfg0.win 2).blk t).view.emb y) 1) k) := by
  obtain ⟨-, -, e2, e3, e4⟩ := window_moves t
  show V m c main_arg1 (((cfg0.win 1).blk t).view.emb (ix2 (y 1) k)) = _
  refine congrArg (V m c main_arg1) ?_
  funext a; apply Fin.ext
  match a with
  | ⟨0, _⟩ => show win0_1.index t (0 : Fin 2) * 768 + 1 * (y 1).val = win0_2.index t (1 : Fin 2) * 768 + 1 * (y 1).val; omega
  | ⟨1, _⟩ => show win0_1.index t (1 : Fin 2) * 6144 + 1 * k.val = k.val; omega

/-- WHAT POINT t WRITES BACK is block t of `logits` of the argument arrays: the block's inner products, with each
    row of the block read as the row of the array it is. -/
theorem flushed_eq (c : Dev nD) (t : Fin cfg0.N) :
    (dats m 0 c).flushed 2 t = ((cfg0.win 2).blk t).view.read (Elt Ideal) (logits (V m c main_arg0) (V m c main_arg1)) := by
  rw [Value.flushed2]
  unfold out0_2
  rw [View.canon_unit_zero origin]
  simp only [View.ld_unit_zero (S := S1024x6144) origin, View.ld_unit_zero (S := S768x6144) origin]
  rw [BlockProduct.pay_eq]
  funext y
  show blockLogits (iblk m c 0 t) (iblk m c 1 t) y = logits (V m c main_arg0) (V m c main_arg1) (((cfg0.win 2).blk t).view.emb y)
  unfold blockLogits logits
  refine Finset.sum_congr rfl fun k _ => ?_
  rw [hidden_block_read m c t y k, weight_block_read m c t y k]

/-- An index of the result array is in point t's block iff each coordinate is in the block's range on its axis. -/
theorem mem_block (t : Fin cfg0.N) (i : S16384x768.Idx) :
    i ∈ ((cfg0.win 2).blk t).view.set ↔ ∀ a : Fin 2, win0_2.index t a * S1024x768.size a ≤ (i a).val ∧ (i a).val < win0_2.index t a * S1024x768.size a + S1024x768.size a := by
  show i ∈ ((View.whole main_v0).slice (win0_2.rect t)).set ↔ _
  rw [View.set_slice_whole, Rect.mem_set_unit]
  exact Iff.rfl

/-- The sixteen blocks tile the result: row r lies in the block of the point whose row-block index is r / 1024, and
    every block spans all the columns. -/
theorem tiles (i : S16384x768.Idx) : ∃ t : Fin cfg0.N, (cfg0.win 2).flush t = true ∧ i ∈ ((cfg0.win 2).blk t).view.set := by
  have hi0 : (i 0).val < 16384 := (i 0).isLt
  have hi1 : (i 1).val < 768 := (i 1).isLt
  obtain ⟨t, ht⟩ := every_row_block ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 768 ≤ (i 1).val ∧ (i 1).val < win0_2.index t (1 : Fin 2) * 768 + 768; omega

/-- THE RESULT ARRAY after the run is `logits` of the two argument arrays as launched. -/
theorem final (c : Dev nD) :
    (dats m 0 c).arrAt 2 cfg0.N = logits (m ((c : Thread nD τ).loc main_arg0)) (m ((c : Thread nD τ).loc main_arg1)) :=
  (dats m 0 c).arrAt_eq_of_cover 2 (logits (V m c main_arg0) (V m c main_arg1)) (fun t _ => flushed_eq m c t) tiles

/-- The kernel's run, read: every weakly fair execution ends with the result array at `logits` of the arguments and
    the arguments unchanged. -/
theorem run : θ_run defs (onTc (τ := τ) (main (F := Ideal))) ⟨m, fun _ => 0, ρ⟩ fun r => ∀ c : Dev nD,
      r.2.mem ((c : Thread nD τ).loc main_v0) = logits (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.KernelLogits

end
-- ==== Proof.RefLogits.lean ====
/-
  The reference computes the router's logits. Its program widens both bf16 arguments to f32 — the identity on the
  extended reals — and contracts axis 1 of the hidden states with axis 1 of the weights in one `dot_general`. Read
  at an output index (r, e), that contraction is the sum over the hidden coordinate d of h[r, d] · w[e, d]: the
  function `logits`.
-/
import proofs.«400669_j49065706390112_3_alg».proof.Proof.Gen.ReferenceIdeal.Read
import proofs.«400669_j49065706390112_3_alg».proof.Proof.RouterLogits

noncomputable section

open scoped BigOperators

namespace Cert.ReferenceIdeal.RefLogits

open Cert.ReferenceIdeal Cert.ReferenceIdeal.Gen Cert.ReferenceIdeal.Read Cert.RouterLogits
open Idealize.ShloMosaic Idealize.ShloMosaic.ValueIdx

/-- The left operand's index at output (r, e) and hidden coordinate d is (r, d). -/
theorem lidx_eq (i : S16384x768.Idx) (k : Fin 6144) : lidx_main_v2 i k = ix2 (i 0) k :=
  funext fun a => Fin.ext (by match a with | ⟨0, _⟩ => rfl | ⟨1, _⟩ => rfl)

/-- The right operand's index at output (r, e) and hidden coordinate d is (e, d): the weights are read row by row,
    untransposed. -/
theorem ridx_eq (i : S16384x768.Idx) (k : Fin 6144) : ridx_main_v2 i k = ix2 (i 1) k :=
  funext fun a => Fin.ext (by match a with | ⟨0, _⟩ => rfl | ⟨1, _⟩ => rfl)

/-- The reference's result, as a function of its two arguments, is `logits`: the widenings are the identity at the
    extended reals and the contraction is the inner product of the two rows. -/
theorem result_eq (h : (⟨S16384x6144, .bf16⟩ : BufTy).Contents (Elt Ideal)) (w : (⟨S768x6144, .bf16⟩ : BufTy).Contents (Elt Ideal)) :
    val_main_v2 (F := Ideal) h w = logits h w := by
  funext i
  rw [val_main_v2_apply]
  unfold logits
  refine Finset.sum_congr rfl fun k _ => ?_
  rw [val_main_v0_apply, val_main_v1_apply, lidx_eq, ridx_eq]
  rfl

end Cert.ReferenceIdeal.RefLogits

end
-- ==== Proof.lean ====
/-
  The router-logits product: the kernel and its reference compute the same function on the extended reals.

  The kernel tiles the 16384 token rows into sixteen blocks of 1024; at each block it multiplies the block of hidden
  states by the whole weight matrix on the matrix unit into a zero accumulator, contracting the last axis of both
  operands, and writes the block of results. The reference widens both arguments (the identity on the extended reals)
  and contracts the same two axes in one product. Both are

      logits[r, e] = ∑ d < 6144, h[r, d] · w[e, d]

  (`RouterLogits.logits`): the reference by reading its contraction at an index (`RefLogits.result_eq`), the kernel
  because each block's product is that block's inner products (`BlockProduct.pay_eq`), a block's rows are rows of the
  array, and the sixteen row blocks tile the result (`KernelLogits.run`). The two sums are the same sum term by term,
  so no law of the extended reals beyond re-indexing a finite sum is used, and the finiteness of the inputs is never
  opened. The three programs run and keep their arguments by their frames; the idealization rewrote nothing.
-/
import proofs.«400669_j49065706390112_3_alg».proof.Defs
import proofs.«400669_j49065706390112_3_alg».proof.Proof.Gen.Kernel.Frame
import proofs.«400669_j49065706390112_3_alg».proof.Proof.Gen.KernelIdeal.Frame
import proofs.«400669_j49065706390112_3_alg».proof.Proof.Gen.KernelIdeal.Value
import proofs.«400669_j49065706390112_3_alg».proof.Proof.Gen.ReferenceIdeal.Run
import proofs.«400669_j49065706390112_3_alg».proof.Proof.Gen.ReferenceIdeal.Read
import proofs.«400669_j49065706390112_3_alg».proof.Proof.Gen.Pre_finite_inputs
import proofs.«400669_j49065706390112_3_alg».proof.Proof.KernelLogits
import proofs.«400669_j49065706390112_3_alg».proof.Proof.RefLogits
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and keeps its arguments: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the hidden states and the weights, the kernel ends with its result array at `logits`
    of its arguments and the reference with its result at the contraction of the same arguments, which is `logits`
    of them too. -/
theorem algebraic : Cert.algebraic_KernelIdeal_ReferenceIdeal := by
  intro m ρ m' ρ' _ hagree
  refine ⟨fun c => Cert.RouterLogits.logits (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelLogits.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefLogits.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
